-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S500000 : Shape := ⟨1, ![500000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg7 : IVec S500000 32) (main_arg9 : IVec S500000 32) (main_v33 : IVec S_ 1) : IVec S_ 1 :=
  let main_c_12 : IVec S_ 32 := constantI S_ 32 0#32
  let main_v34 : IVec S500000 32 := broadcastInDim S500000 ![] bcast_S_S500000 main_c_12
  let main_v35 : IVec S500000 1 := cmpi .sge main_arg7 main_v34
  let main_c_13 : IVec S_ 1 := constantI S_ 1 1#1
  let main_v36 : IVec S_ 1 := (fun x v => Host.reduce IntOp.andi x v reducesTo_S500000_S_d0 h_S_) main_v35 main_c_13
  let main_v37 : IVec S_ 1 := andi main_v33 main_v36
  let main_c_14 : IVec S_ 32 := constantI S_ 32 50000#32
  let main_v38 : IVec S500000 32 := broadcastInDim S500000 ![] bcast_S_S500000 main_c_14
  let main_v39 : IVec S500000 1 := cmpi .slt main_arg7 main_v38
  let main_c_15 : IVec S_ 1 := constantI S_ 1 1#1
  let main_v40 : IVec S_ 1 := (fun x v => Host.reduce IntOp.andi x v reducesTo_S500000_S_d0 h_S_) main_v39 main_c_15
  let main_v41 : IVec S_ 1 := andi main_v37 main_v40
  let main_c_16 : IVec S_ 32 := constantI S_ 32 0#32
  let main_v42 : IVec S500000 32 := broadcastInDim S500000 ![] bcast_S_S500000 main_c_16
  let main_v43 : IVec S500000 1 := cmpi .sge main_arg9 main_v42
  let main_c_17 : IVec S_ 1 := constantI S_ 1 1#1
  let main_v44 : IVec S_ 1 := (fun x v => Host.reduce IntOp.andi x v reducesTo_S500000_S_d0 h_S_) main_v43 main_c_17
  let main_v45 : IVec S_ 1 := andi main_v41 main_v44
  let main_c_18 : IVec S_ 32 := constantI S_ 32 50000#32
  let main_v46 : IVec S500000 32 := broadcastInDim S500000 ![] bcast_S_S500000 main_c_18
  let main_v47 : IVec S500000 1 := cmpi .slt main_arg9 main_v46
  let main_c_19 : IVec S_ 1 := constantI S_ 1 1#1
  let main_v48 : IVec S_ 1 := (fun x v => Host.reduce IntOp.andi x v reducesTo_S500000_S_d0 h_S_) main_v47 main_c_19
  let main_v49 : IVec S_ 1 := andi main_v45 main_v48
  main_v49

def fn_part1 {F : FTy → Type} [FloatOps F] (main_arg4 : FVec F S128 .f32) (main_arg5 : FVec F S128x128 .f32) (main_arg6 : FVec F S128 .f32) (main_arg7 : IVec S500000 32) (main_arg9 : IVec S500000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg9 main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : IVec S500000 32) (main_arg8 : IVec S500000 32) (main_arg9 : IVec S500000 32) (main_arg10 : IVec S500000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg9 main_v13 main_v16
-- ==== Kernel.lean ====
abbrev S50000x128 : Shape := ⟨2, ![50000, 128]⟩
abbrev S128x128 : Shape := ⟨2, ![128, 128]⟩
abbrev S128 : Shape := ⟨1, ![128]⟩
abbrev S500000 : Shape := ⟨1, ![500000]⟩
abbrev S5000x128 : Shape := ⟨2, ![5000, 128]⟩
abbrev S1x128 : Shape := ⟨2, ![1, 128]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x128 : Shape := ⟨2, ![500000, 128]⟩

abbrev nBuf : Space → Nat
  | .hbm => 72
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S500000, .i32⟩
  | .hbm, ⟨8, _⟩ => ⟨S500000, .i32⟩
  | .hbm, ⟨9, _⟩ => ⟨S500000, .i32⟩
  | .hbm, ⟨10, _⟩ => ⟨S500000, .i32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S50000x128, .f32⟩
  | .hbm, ⟨15, _⟩ => ⟨S50000x128, .f32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S1, .i32⟩
  | .hbm, ⟨25, _⟩ => ⟨S_, .i32⟩
  | .hbm, ⟨26, _⟩ => ⟨S500000x1, .i32⟩
  | .hbm, ⟨27, _⟩ => ⟨S500000x1, .i1⟩
  | .hbm, ⟨28, _⟩ => ⟨S1x1, .i32⟩
  | .hbm, ⟨29, _⟩ => ⟨S500000x1, .i32⟩
  | .hbm, ⟨30, _⟩ => ⟨S500000x1, .i1⟩
  | .hbm, ⟨31, _⟩ => ⟨S500000x1, .i1⟩
  | .hbm, ⟨32, _⟩ => ⟨S_, .i1⟩
  | .hbm, ⟨33, _⟩ => ⟨S500000, .i1⟩
  | .hbm, ⟨34, _⟩ => ⟨S500000x128, .f32⟩
  | .hbm, ⟨35, _⟩ => ⟨S500000x128, .i1⟩
  | .hbm, ⟨36, _⟩ => ⟨S_, .f32⟩
  | .hbm, ⟨37, _⟩ => ⟨S500000x128, .f32⟩
  | .hbm, ⟨38, _⟩ => ⟨S500000x128, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S1, .i32⟩
  | .hbm, ⟨48, _⟩ => ⟨S_, .i32⟩
  | .hbm, ⟨49, _⟩ => ⟨S500000x1, .i32⟩
  | .hbm, ⟨50, _⟩ => ⟨S500000x1, .i1⟩
  | .hbm, ⟨51, _⟩ => ⟨S1x1, .i32⟩
  | .hbm, ⟨52, _⟩ => ⟨S500000x1, .i32⟩
  | .hbm, ⟨53, _⟩ => ⟨S500000x1, .i1⟩
  | .hbm, ⟨54, _⟩ => ⟨S500000x1, .i1⟩
  | .hbm, ⟨55, _⟩ => ⟨S_, .i1⟩
  | .hbm, ⟨56, _⟩ => ⟨S500000, .i1⟩
  | .hbm, ⟨57, _⟩ => ⟨S500000x128, .f32⟩
  | .hbm, ⟨58, _⟩ => ⟨S500000x128, .i1⟩
  | .hbm, ⟨59, _⟩ => ⟨S_, .f32⟩
  | .hbm, ⟨60, _⟩ => ⟨S500000x128, .f32⟩
  | .hbm, ⟨61, _⟩ => ⟨S500000x128, .f32⟩
  | .hbm, ⟨62, _⟩ => ⟨S_, .f32⟩
  | .hbm, ⟨63, _⟩ => ⟨S50000x128, .f32⟩
  | .hbm, ⟨64, _⟩ => ⟨S500000x1, .i32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S500000x1, .i32⟩
  | .hbm, ⟨69, _⟩ => ⟨S50000x128, .f32⟩
  | .hbm, ⟨70, _⟩ => ⟨S50000x128, .f32⟩
  | .hbm, ⟨71, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v5 : Ref sig .tc := ⟨.hbm, 61, rfl⟩
abbrev main_cst : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_cst_0 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  bcast_S_S50000x128 : S_.BroadcastsInDim S50000x128 (![] : Fin 0 → Fin S50000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v12) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S500000 : Shape := ⟨1, ![500000]⟩
abbrev S1x128 : Shape := ⟨2, ![1, 128]⟩
abbrev S_ : Shape := ⟨0, ![]⟩
abbrev S500000x1 : Shape := ⟨2, ![500000, 1]⟩
abbrev S500000x128 : Shape := ⟨2, ![500000, 128]⟩

abbrev nBuf : Space → Nat
  | .hbm => 54
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S500000, .i32⟩
  | .hbm, ⟨8, _⟩ => ⟨S500000, .i32⟩
  | .hbm, ⟨9, _⟩ => ⟨S500000, .i32⟩
  | .hbm, ⟨10, _⟩ => ⟨S500000, .i32⟩
  | .hbm, ⟨11, _⟩ => ⟨S128x128, .f32⟩
  | .hbm, ⟨12, _⟩ => ⟨S50000x128, .f32⟩
  | .hbm, ⟨13, _⟩ => ⟨S1x128, .f32⟩
  | .hbm, ⟨14, _⟩ => ⟨S50000x128, .f32⟩
  | .hbm, ⟨15, _⟩ => ⟨S50000x128, .f32⟩
  | .hbm, ⟨16, _⟩ => ⟨S128x128, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000x128, .f32⟩
  | .hbm, ⟨30, _⟩ => ⟨S_, .f32⟩
  | .hbm, ⟨31, _⟩ => ⟨S50000x128, .f32⟩
  | .hbm, ⟨32, _⟩ => ⟨S500000x1, .i32⟩
  | .hbm, ⟨33, _⟩ => ⟨S50000x128, .f32⟩
  | .hbm, ⟨34, _⟩ => ⟨S_, .i32⟩
  | .hbm, ⟨35, _⟩ => ⟨S500000, .i32⟩
  | .hbm, ⟨36, _⟩ => ⟨S500000, .i1⟩
  | .hbm, ⟨37, _⟩ => ⟨S_, .i32⟩
  | .hbm, ⟨38, _⟩ => ⟨S500000, .i32⟩
  | .hbm, ⟨39, _⟩ => ⟨S500000, .i32⟩
  | .hbm, ⟨40, _⟩ => ⟨S500000, .i32⟩
  | .hbm, ⟨41, _⟩ => ⟨S500000x1, .i32⟩
  | .hbm, ⟨42, _⟩ => ⟨S500000x128, .f32⟩
  | .hbm, ⟨43, _⟩ => ⟨S_, .f32⟩
  | .hbm, ⟨44, _⟩ => ⟨S50000x128, .f32⟩
  | .hbm, ⟨45, _⟩ => ⟨S500000x1, .i32⟩
  | .hbm, ⟨46, _⟩ => ⟨S50000x128, .f32⟩
  | .hbm, ⟨47, _⟩ => ⟨S50000x128, .f32⟩
  | .hbm, ⟨48, _⟩ => ⟨S128x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

class Facts : Prop extends Facts₀ where

variable [Facts]
-- ==== Proof.Region0Common.lean ====
/- The projection kernel's grid: where each window's block sits at each of the ten steps.
   Step t holds rows 5000·t … 5000·t + 4999 of the features (all 128 columns) and writes the same rows of both
   outputs; the transposed weight matrices and the biases are held whole at every step. -/
import proofs.«424200_j46445776339627_1_alg».proof.Proof.Gen.KernelIdeal.Frame

set_option maxRecDepth 16384

noncomputable section

namespace Cert.KernelIdeal.Region0

open Cert.KernelIdeal Cert.KernelIdeal.Gen
open Idealize.ShloMosaic Idealize.ShloMosaic.TcCoe
open Idealize.SL.Sem

theorem z2 : (![0, 0] : Fin 2 → Nat) = fun _ => 0 := funext fun a => by fin_cases a <;> rfl
theorem z1 : (![0] : Fin 1 → Nat) = fun _ => 0 := funext fun a => by fin_cases a <;> rfl

/-- Where each window's block sits at step t: the feature tile and both output tiles at row block t, column
    block 0; the weights and biases at block 0 throughout; and t is below ten. -/
theorem blocks_at : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 9
    ∧ win0_6.index t (0 : Fin 2) = win0_5.index t (0 : Fin 2) ∧ win0_6.index t (1 : Fin 2) = 0 :=
  (by decide +kernel : ∀ t : Fin grid0.N, _)

/-- Every row block is some step's. -/
theorem block_onto : ∀ q0 : Fin 10, ∃ t : Fin cfg0.N, win0_5.index t = ![q0.val, 0] ∧ win0_6.index t = ![q0.val, 0] :=
  (by decide +kernel : ∀ q0 : Fin 10, ∃ t : Fin grid0.N, win0_5.index t = ![q0.val, 0] ∧ win0_6.index t = ![q0.val, 0])

end Cert.KernelIdeal.Region0

end
-- ==== Proof.Payload.lean ====
/- What one grid step of each kernel computes, read entry by entry over the extended reals.
   A step holds a 5000-row tile of the features, the whole transposed weight matrix and the bias; it rounds
   nothing at this reading (the change to a narrower float format is the identity), multiplies the tile by the
   matrix into a zero accumulator and adds the bias row to every row. So entry (p, q) of the tile's result is
   Σ_k tile[p,k] · wT[k,q] + b[q]; the output stage also adds the tile of the residual at (p, q). -/
import proofs.«424200_j46445776339627_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The contraction's operand indices: output (p, q), position k ↦ (p, k) on the left, (k, q) on the right -/

theorem lhs_tile_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_tile_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_tile_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_tile_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The tile's product into a zero accumulator, at (p, q): the sum over the 128 input features. -/
theorem tile_product (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_tile_0 _ _
    | ⟨1, _⟩ => exact (lhs_tile_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_tile_0 _ _).trans hk
    | ⟨1, _⟩ => exact rhs_tile_1 _ _)
  rw [el, er]

/-- The bias row laid under every row of the tile, at (p, q): the bias at q. -/
theorem bias_rows (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- One step of the projection kernel, chemical output, at (p, q). -/
theorem proj_chem_apply (v0 : Vec Ideal S5000x128 .f32) (v2 : Vec Ideal S128x128 .f32) (v9 : Vec Ideal S128 .f32) (p : Fin 5000) (q : Fin 128) :
    k0_pay2 (F := Ideal) v0 v2 v9 (ix2 p q) = (∑ k : Fin 128, v0 (ix2 p k) * v2 (ix2 k q)) + v9 (ix1 q) := by
  unfold k0_pay2 k0_pay1
  rw [addf_apply, tile_product, bias_rows]
  simp only [truncf_apply, shapeCast_self]

/-- One step of the projection kernel, electrical output, at (p, q). -/
theorem proj_elec_apply (v0 : Vec Ideal S5000x128 .f32) (v5 : Vec Ideal S128x128 .f32) (v14 : Vec Ideal S128 .f32) (p : Fin 5000) (q : Fin 128) :
    k0_pay3 (F := Ideal) v0 v5 v14 (ix2 p q) = (∑ k : Fin 128, v0 (ix2 p k) * v5 (ix2 k q)) + v14 (ix1 q) := by
  unfold k0_pay3 k0_pay1
  rw [addf_apply, tile_product, bias_rows]
  simp only [truncf_apply, shapeCast_self]

/-- One step of the output kernel at (p, q): the linear layer of the aggregated tile plus the residual tile. -/
theorem out_apply (v0 : Vec Ideal S5000x128 .f32) (v3 : Vec Ideal S128x128 .f32) (v7 : Vec Ideal S128 .f32) (v11 : Vec Ideal S5000x128 .f32) (p : Fin 5000) (q : Fin 128) :
    k1_pay1 (F := Ideal) v0 v3 v7 v11 (ix2 p q) = ((∑ k : Fin 128, v0 (ix2 p k) * v3 (ix2 k q)) + v7 (ix1 q)) + v11 (ix2 p q) := by
  unfold k1_pay1
  rw [addf_apply, addf_apply, tile_product, bias_rows]
  simp only [truncf_apply, shapeCast_self]

end Cert.KernelIdeal.Payload

end
-- ==== Proof.Spec.lean ====
/- One linear layer of the node features, as a function of whole arrays over the extended reals.
   For features `x` (50000 × 128), a weight matrix already transposed `wT` (128 × 128, input axis first)
   and a bias `b` (128), the layer's value at row `r`, column `c` is  Σ_k x[r,k] · wT[k,c] + b[c].
   Both programs compute their three dense stages as this function; only the tiling differs. -/
import Idealize.ShloMosaic.PureOps.Ideal
import Idealize.ShloMosaic.Lib.ValueIdx

noncomputable section

namespace Cert.Spec

open Idealize.ShloMosaic Idealize.ShloMosaic.ValueIdx

abbrev SN : Shape := ⟨2, ![50000, 128]⟩
abbrev SW : Shape := ⟨2, ![128, 128]⟩
abbrev SB : Shape := ⟨1, ![128]⟩

/-- Row `r` of the features at contraction position `k`. -/
abbrev rowAt (i : SN.Idx) (k : Fin 128) : SN.Idx := fun a => match a with
  | ⟨0, _⟩ => ⟨(i 0).val, (i 0).isLt⟩
  | ⟨1, _⟩ => ⟨k.val, k.isLt⟩
/-- Contraction position `k` of the transposed weights at output column `c`. -/
abbrev colAt (i : SN.Idx) (k : Fin 128) : SW.Idx := fun a => match a with
  | ⟨0, _⟩ => ⟨k.val, k.isLt⟩
  | ⟨1, _⟩ => ⟨(i 1).val, (i 1).isLt⟩
/-- The bias entry of output column `c`. -/
abbrev laneAt (i : SN.Idx) : SB.Idx := fun a => match a with
  | ⟨0, _⟩ => ⟨(i 1).val, (i 1).isLt⟩

/-- The linear layer: at (r, c), Σ_k x[r,k] · wT[k,c] + b[c]. -/
def lin (x : SN.Idx → EReal) (wT : SW.Idx → EReal) (b : SB.Idx → EReal) : SN.Idx → EReal :=
  fun i => (∑ k : Fin 128, x (rowAt i k) * wT (colAt i k)) + b (laneAt i)

/-- The output stage: a linear layer of the aggregated messages plus the residual projection. -/
def outLayer (h : SN.Idx → EReal) (wT : SW.Idx → EReal) (b : SB.Idx → EReal) (res : SN.Idx → EReal) : SN.Idx → EReal :=
  fun i => lin h wT b i + res i

end Cert.Spec

end
-- ==== Proof.Region0Chem.lean ====
/- The projection kernel's chemical output array after its ten grid steps, as a whole-array function.
   Entry (r, c) of the output is written once, by step r / 5000, with  Σ_k feats[r,k] · wT[k,c] + b[c]
   over the chemical weights and bias: the array ends as the linear layer `Spec.lin` of the arrays the region found. -/
import proofs.«424200_j46445776339627_1_alg».proof.Proof.Region0Common
import proofs.«424200_j46445776339627_1_alg».proof.Proof.Payload
import proofs.«424200_j46445776339627_1_alg».proof.Proof.Spec

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- What step t writes back to the chemical output is block t of the linear layer of the arrays found. -/
theorem flushed5_eq (c : Dev nD) (t : Fin cfg0.N) :
    (dat0 (F := Ideal) V c).flushed 5 t
      = ((cfg0.win 5).blk t).view.read (Elt Ideal) (Cert.Spec.lin (V c main_arg0) (V c main_v0) (V c main_arg2)) := by
  show (cfg0.win 5).cut (grid0.coords t) ((dat0 (F := Ideal) V c).after 5 t) = _
  rw [after0_5]
  unfold out0_5
  rw [View.canon_unit_zero z2]
  simp only [View.ld_unit_zero (S := S5000x128) z2, View.ld_unit_zero (S := S128x128) z2, View.ld_unit_zero (S := S128) z1]
  funext j
  show k0_pay2 (iblk0 V c 0 t) (iblk0 V c 1 t) (iblk0 V c 2 t) j
    = Cert.Spec.lin (V c main_arg0) (V c main_v0) (V c main_arg2) (((cfg0.win 5).blk t).view.emb j)
  obtain ⟨p, q, rfl⟩ : ∃ (p : Fin 5000) (q : Fin 128), j = ix2 p q := ⟨j 0, j 1, eq_ix2 j⟩
  refine (Cert.KernelIdeal.Payload.proj_chem_apply (iblk0 V c 0 t) (iblk0 V c 1 t) (iblk0 V c 2 t) p q).trans ?_
  obtain ⟨e0, e1, e2, e3, e4, e5, e6, e7, e8, e9, e10, e11⟩ := blocks_at t
  unfold Cert.Spec.lin
  have hx : ∀ k : Fin 128, iblk0 V c 0 t (ix2 p k)
      = V c main_arg0 (Cert.Spec.rowAt (((cfg0.win 5).blk t).view.emb (ix2 p q)) k) := fun k => by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  have hw : ∀ k : Fin 128, iblk0 V c 1 t (ix2 k q)
      = V c main_v0 (Cert.Spec.colAt (((cfg0.win 5).blk t).view.emb (ix2 p q)) k) := fun k => by
    show V c main_v0 (((cfg0.win 1).blk t).view.emb (ix2 k q)) = _
    refine congrArg (V c main_v0) (funext fun a => Fin.ext ?_)
    match a with
    | ⟨0, _⟩ => show win0_1.index t (0 : Fin 2) * 128 + 1 * k.val = k.val; omega
    | ⟨1, _⟩ => show win0_1.index t (1 : Fin 2) * 128 + 1 * q.val = win0_5.index t (1 : Fin 2) * 128 + 1 * q.val; omega
  have hb : iblk0 V c 2 t (ix1 q)
      = V c main_arg2 (Cert.Spec.laneAt (((cfg0.win 5).blk t).view.emb (ix2 p q))) := by
    show V c main_arg2 (((cfg0.win 2).blk t).view.emb (ix1 q)) = _
    refine congrArg (V c main_arg2) (funext fun a => Fin.ext ?_)
    match a with
    | ⟨0, _⟩ => show win0_2.index t (0 : Fin 1) * 128 + 1 * q.val = win0_5.index t (1 : Fin 2) * 128 + 1 * q.val; omega
  simp only [hx, hw, hb]

/-- An index of the chemical output lies in step t's block iff each coordinate lies in the block's range. -/
theorem mem_blk5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v3_0).slice (win0_5.rect t)).set ↔ _
  rw [View.set_slice_whole, Rect.mem_set_unit]
  exact Iff.rfl

/-- Every entry of the chemical output is written: row r by step r / 5000. -/
theorem cover5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht5, ht6⟩ := block_onto ⟨(i 0).val / 5000, by omega⟩
  have q0 : win0_5.index t (0 : Fin 2) = (i 0).val / 5000 := congrFun ht5 0
  have q1 : win0_5.index t (1 : Fin 2) = 0 := congrFun ht5 1
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The chemical output array after the region: the linear layer of the features, the transposed weights and the
    bias as the region found them. -/
theorem final5 (c : Dev nD) :
    (dat0 (F := Ideal) V c).arrAt 5 cfg0.N = Cert.Spec.lin (V c main_arg0) (V c main_v0) (V c main_arg2) :=
  (dat0 (F := Ideal) V c).arrAt_eq_of_cover 5 _ (fun t _ => flushed5_eq V c t) cover5

end Cert.KernelIdeal.Region0

end
-- ==== Proof.Region0Elec.lean ====
/- The projection kernel's electrical output array after its ten grid steps, as a whole-array function.
   Entry (r, c) of the output is written once, by step r / 5000, with  Σ_k feats[r,k] · wT[k,c] + b[c]
   over the electrical weights and bias: the array ends as the linear layer `Spec.lin` of the arrays the region found. -/
import proofs.«424200_j46445776339627_1_alg».proof.Proof.Region0Common
import proofs.«424200_j46445776339627_1_alg».proof.Proof.Payload
import proofs.«424200_j46445776339627_1_alg».proof.Proof.Spec

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- What step t writes back to the electrical output is block t of the linear layer of the arrays found. -/
theorem flushed6_eq (c : Dev nD) (t : Fin cfg0.N) :
    (dat0 (F := Ideal) V c).flushed 6 t
      = ((cfg0.win 6).blk t).view.read (Elt Ideal) (Cert.Spec.lin (V c main_arg0) (V c main_v1) (V c main_arg4)) := by
  show (cfg0.win 6).cut (grid0.coords t) ((dat0 (F := Ideal) V c).after 6 t) = _
  rw [after0_6]
  unfold out0_6
  rw [View.canon_unit_zero z2]
  simp only [View.ld_unit_zero (S := S5000x128) z2, View.ld_unit_zero (S := S128x128) z2, View.ld_unit_zero (S := S128) z1]
  funext j
  show k0_pay3 (iblk0 V c 0 t) (iblk0 V c 3 t) (iblk0 V c 4 t) j
    = Cert.Spec.lin (V c main_arg0) (V c main_v1) (V c main_arg4) (((cfg0.win 6).blk t).view.emb j)
  obtain ⟨p, q, rfl⟩ : ∃ (p : Fin 5000) (q : Fin 128), j = ix2 p q := ⟨j 0, j 1, eq_ix2 j⟩
  refine (Cert.KernelIdeal.Payload.proj_elec_apply (iblk0 V c 0 t) (iblk0 V c 3 t) (iblk0 V c 4 t) p q).trans ?_
  obtain ⟨e0, e1, e2, e3, e4, e5, e6, e7, e8, e9, e10, e11⟩ := blocks_at t
  unfold Cert.Spec.lin
  have hx : ∀ k : Fin 128, iblk0 V c 0 t (ix2 p k)
      = V c main_arg0 (Cert.Spec.rowAt (((cfg0.win 6).blk t).view.emb (ix2 p q)) k) := fun k => by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_6.index t (0 : Fin 2) * 5000 + 1 * p.val; omega
    | ⟨1, _⟩ => show win0_0.index t (1 : Fin 2) * 128 + 1 * k.val = k.val; omega
  have hw : ∀ k : Fin 128, iblk0 V c 3 t (ix2 k q)
      = V c main_v1 (Cert.Spec.colAt (((cfg0.win 6).blk t).view.emb (ix2 p q)) k) := fun k => by
    show V c main_v1 (((cfg0.win 3).blk t).view.emb (ix2 k q)) = _
    refine congrArg (V c main_v1) (funext fun a => Fin.ext ?_)
    match a with
    | ⟨0, _⟩ => show win0_3.index t (0 : Fin 2) * 128 + 1 * k.val = k.val; omega
    | ⟨1, _⟩ => show win0_3.index t (1 : Fin 2) * 128 + 1 * q.val = win0_6.index t (1 : Fin 2) * 128 + 1 * q.val; omega
  have hb : iblk0 V c 4 t (ix1 q)
      = V c main_arg4 (Cert.Spec.laneAt (((cfg0.win 6).blk t).view.emb (ix2 p q))) := by
    show V c main_arg4 (((cfg0.win 4).blk t).view.emb (ix1 q)) = _
    refine congrArg (V c main_arg4) (funext fun a => Fin.ext ?_)
    match a with
    | ⟨0, _⟩ => show win0_4.index t (0 : Fin 1) * 128 + 1 * q.val = win0_6.index t (1 : Fin 2) * 128 + 1 * q.val; omega
  simp only [hx, hw, hb]

/-- An index of the electrical output lies in step t's block iff each coordinate lies in the block's range. -/
theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v3_1).slice (win0_6.rect t)).set ↔ _
  rw [View.set_slice_whole, Rect.mem_set_unit]
  exact Iff.rfl

/-- Every entry of the electrical output is written: row r by step r / 5000. -/
theorem cover6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht5, ht6⟩ := block_onto ⟨(i 0).val / 5000, by omega⟩
  have q0 : win0_6.index t (0 : Fin 2) = (i 0).val / 5000 := congrFun ht6 0
  have q1 : win0_6.index t (1 : Fin 2) = 0 := congrFun ht6 1
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The electrical output array after the region: the linear layer of the features, the transposed weights and the
    bias as the region found them. -/
theorem final6 (c : Dev nD) :
    (dat0 (F := Ideal) V c).arrAt 6 cfg0.N = Cert.Spec.lin (V c main_arg0) (V c main_v1) (V c main_arg4) :=
  (dat0 (F := Ideal) V c).arrAt_eq_of_cover 6 _ (fun t _ => flushed6_eq V c t) cover6

end Cert.KernelIdeal.Region0

end
-- ==== Proof.Region1.lean ====
/- The output kernel's result array after its ten grid steps, as a whole-array function.
   Step t holds rows 5000·t … 5000·t + 4999 of the aggregated messages and of the residual projection, the whole
   transposed output weights and the output bias, and writes the same rows of the result. Entry (r, c) is written
   once, by step r / 5000, with  Σ_k h[r,k] · wT[k,c] + b[c] + res[r,c]:  the array ends as `Spec.outLayer` of the
   arrays the region found. -/
import proofs.«424200_j46445776339627_1_alg».proof.Proof.Gen.KernelIdeal.Frame
import proofs.«424200_j46445776339627_1_alg».proof.Proof.Payload
import proofs.«424200_j46445776339627_1_alg».proof.Proof.Spec

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zz : (![0, 0] : Fin 2 → Nat) = fun _ => 0 := funext fun a => by fin_cases a <;> rfl
theorem z : (![0] : Fin 1 → Nat) = fun _ => 0 := funext fun a => by fin_cases a <;> rfl

/-- Where each window's block sits at step t: the aggregated tile, the residual tile and the result tile at row
    block t, column block 0; the weights and the bias at block 0 throughout; and t is below ten. -/
theorem tiles_at : ∀ t : Fin cfg1.N,
    win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = win1_4.index t (0 : Fin 2) ∧ win1_3.index t (1 : Fin 2) = 0
    ∧ win1_4.index t (1 : Fin 2) = 0 ∧ win1_4.index t (0 : Fin 2) ≤ 9 :=
  (by decide +kernel : ∀ t : Fin grid1.N, _)

/-- Every row block of the result is some step's. -/
theorem tile_onto : ∀ q0 : Fin 10, ∃ t : Fin cfg1.N, win1_4.index t = ![q0.val, 0] :=
  (by decide +kernel : ∀ q0 : Fin 10, ∃ t : Fin grid1.N, win1_4.index t = ![q0.val, 0])

/-- What step t writes back is block t of the output layer of the arrays found. -/
theorem written_eq (c : Dev nD) (t : Fin cfg1.N) :
    (dat1 (F := Ideal) V c).flushed 4 t
      = ((cfg1.win 4).blk t).view.read (Elt Ideal)
          (Cert.Spec.outLayer (V c main_v12) (V c main_v2) (V c main_arg6) (V c main_v3_1)) := by
  show (cfg1.win 4).cut (grid1.coords t) ((dat1 (F := Ideal) V c).after 4 t) = _
  rw [after1_4]
  unfold out1_4
  rw [View.canon_unit_zero zz]
  simp only [View.ld_unit_zero (S := S5000x128) zz, View.ld_unit_zero (S := S128x128) zz, View.ld_unit_zero (S := S128) z]
  funext j
  show k1_pay1 (iblk1 V c 0 t) (iblk1 V c 1 t) (iblk1 V c 2 t) (iblk1 V c 3 t) j
    = Cert.Spec.outLayer (V c main_v12) (V c main_v2) (V c main_arg6) (V c main_v3_1) (((cfg1.win 4).blk t).view.emb j)
  obtain ⟨p, q, rfl⟩ : ∃ (p : Fin 5000) (q : Fin 128), j = ix2 p q := ⟨j 0, j 1, eq_ix2 j⟩
  refine (Cert.KernelIdeal.Payload.out_apply (iblk1 V c 0 t) (iblk1 V c 1 t) (iblk1 V c 2 t) (iblk1 V c 3 t) p q).trans ?_
  obtain ⟨e0, e1, e2, e3, e4, e5, e6, e7, e8⟩ := tiles_at t
  unfold Cert.Spec.outLayer Cert.Spec.lin
  have hh : ∀ k : Fin 128, iblk1 V c 0 t (ix2 p k)
      = V c main_v12 (Cert.Spec.rowAt (((cfg1.win 4).blk t).view.emb (ix2 p q)) k) := fun k => by
    show V c main_v12 (((cfg1.win 0).blk t).view.emb (ix2 p k)) = _
    refine congrArg (V c main_v12) (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * k.val = k.val; omega
  have hw : ∀ k : Fin 128, iblk1 V c 1 t (ix2 k q)
      = V c main_v2 (Cert.Spec.colAt (((cfg1.win 4).blk t).view.emb (ix2 p q)) k) := fun k => by
    show V c main_v2 (((cfg1.win 1).blk t).view.emb (ix2 k q)) = _
    refine congrArg (V c main_v2) (funext fun a => Fin.ext ?_)
    match a with
    | ⟨0, _⟩ => show win1_1.index t (0 : Fin 2) * 128 + 1 * k.val = k.val; omega
    | ⟨1, _⟩ => show win1_1.index t (1 : Fin 2) * 128 + 1 * q.val = win1_4.index t (1 : Fin 2) * 128 + 1 * q.val; omega
  have hb : iblk1 V c 2 t (ix1 q)
      = V c main_arg6 (Cert.Spec.laneAt (((cfg1.win 4).blk t).view.emb (ix2 p q))) := by
    show V c main_arg6 (((cfg1.win 2).blk t).view.emb (ix1 q)) = _
    refine congrArg (V c main_arg6) (funext fun a => Fin.ext ?_)
    match a with
    | ⟨0, _⟩ => show win1_2.index t (0 : Fin 1) * 128 + 1 * q.val = win1_4.index t (1 : Fin 2) * 128 + 1 * q.val; omega
  have hr : iblk1 V c 3 t (ix2 p q) = V c main_v3_1 (((cfg1.win 4).blk t).view.emb (ix2 p q)) := by
    show V c main_v3_1 (((cfg1.win 3).blk t).view.emb (ix2 p q)) = _
    refine congrArg (V c main_v3_1) (funext fun a => Fin.ext ?_)
    match a with
    | ⟨0, _⟩ => show win1_3.index t (0 : Fin 2) * 5000 + 1 * p.val = win1_4.index t (0 : Fin 2) * 5000 + 1 * p.val; omega
    | ⟨1, _⟩ => show win1_3.index t (1 : Fin 2) * 128 + 1 * q.val = win1_4.index t (1 : Fin 2) * 128 + 1 * q.val; omega
  simp only [hh, hw, hb, hr]

/-- An index of the result lies in step t's block iff each coordinate lies in the block's range. -/
theorem mem_tile (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v13).slice (win1_4.rect t)).set ↔ _
  rw [View.set_slice_whole, Rect.mem_set_unit]
  exact Iff.rfl

/-- Every entry of the result is written: row r by step r / 5000. -/
theorem all_written (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := tile_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_tile]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The result array after the region: the output layer of the aggregated messages, the transposed output weights,
    the output bias and the residual projection as the region found them. -/
theorem result_array (c : Dev nD) :
    (dat1 (F := Ideal) V c).arrAt 4 cfg1.N
      = Cert.Spec.outLayer (V c main_v12) (V c main_v2) (V c main_arg6) (V c main_v3_1) :=
  (dat1 (F := Ideal) V c).arrAt_eq_of_cover 4 _ (fun t _ => written_eq V c t) all_written

end Cert.KernelIdeal.Region1

end
-- ==== Proof.RefSide.lean ====
/- The reference program read as ONE function of its argument arrays.
   Its two per-edge-type projections and its output stage are the linear layer `Spec.lin` (a host
   `dot_general` over the 128 input features plus a bias row broadcast down the rows); between them
   the messages are aggregated: for each edge type the projection's rows are gathered at the edges'
   source nodes and summed into the rows of the edges' destination nodes, and the two sums added. -/
import proofs.«424200_j46445776339627_1_alg».proof.Proof.Gen.ReferenceIdeal.Run
import proofs.«424200_j46445776339627_1_alg».proof.Proof.Gen.ReferenceIdeal.Read
import proofs.«424200_j46445776339627_1_alg».proof.Proof.Spec

noncomputable section

namespace Cert.ReferenceIdeal.RefSide

open Cert.ReferenceIdeal Cert.ReferenceIdeal.Gen Cert.ReferenceIdeal.Read Idealize.ShloMosaic Idealize.ShloMosaic.TcCoe Idealize.SL.Sem Idealize.ShloMosaic.StableHlo

/-- The aggregation of messages, from the two projections `whc`, `whe` and the four edge-index vectors:
    rows of `whc` gathered at the chemical edges' sources and scatter-added at their destinations, the same
    for `whe` over the electrical edges, and the two sums added. -/
def aggregate (whc whe : (⟨S50000x128, .f32⟩ : BufTy).Contents (Elt Ideal)) (x7 x8 x9 x10 : (⟨S500000, .i32⟩ : BufTy).Contents (Elt Ideal)) : (⟨S50000x128, .f32⟩ : BufTy).Contents (Elt Ideal) :=
  addf (F := Ideal) (s := S50000x128) (φ := .f32)
    (Host.scatterAdd (F := Ideal) scatter_S50000x128_S500000x1_S500000x128_1_0_0_1 (val_main_v17 (F := Ideal)) (val_main_v18 (F := Ideal) x8)
      (Host.gather gather_S50000x128_S500000x1_S500000x128_1_0_n_n_0_1_1128 whc (val_main_v15 (F := Ideal) x7)))
    (Host.scatterAdd (F := Ideal) scatter_S50000x128_S500000x1_S500000x128_1_0_0_1 (val_main_v27 (F := Ideal)) (val_main_v28 (F := Ideal) x10)
      (Host.gather gather_S50000x128_S500000x1_S500000x128_1_0_n_n_0_1_1128 whe (val_main_v25 (F := Ideal) x9)))

/-- The whole layer as a function of the eleven arguments. -/
def G (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 x8 x9 x10 : (⟨S500000, .i32⟩ : BufTy).Contents (Elt Ideal)) : (⟨S50000x128, .f32⟩ : BufTy).Contents (Elt Ideal) :=
  Cert.Spec.outLayer
    (aggregate (Cert.Spec.lin x0 (val_main_v0 (F := Ideal) x1) x2) (Cert.Spec.lin x0 (val_main_v5 (F := Ideal) x3) x4) x7 x8 x9 x10)
    (val_main_v31 (F := Ideal) x5) x6 (Cert.Spec.lin x0 (val_main_v5 (F := Ideal) x3) x4)

/-- The chemical projection of the reference is the linear layer of the features with the transposed weights. -/
theorem proj_chem (x0 : (⟨S50000x128, .f32⟩ : BufTy).Contents (Elt Ideal)) (x1 : (⟨S128x128, .f32⟩ : BufTy).Contents (Elt Ideal)) (x2 : (⟨S128, .f32⟩ : BufTy).Contents (Elt Ideal)) :
    val_main_v4 (F := Ideal) x0 x1 x2 = Cert.Spec.lin x0 (val_main_v0 (F := Ideal) x1) x2 := by
  funext i
  rw [val_main_v4_apply, val_main_v1_apply, val_main_v3_apply, val_main_v2_apply]
  rfl

/-- The electrical projection likewise. -/
theorem proj_elec (x0 : (⟨S50000x128, .f32⟩ : BufTy).Contents (Elt Ideal)) (x3 : (⟨S128x128, .f32⟩ : BufTy).Contents (Elt Ideal)) (x4 : (⟨S128, .f32⟩ : BufTy).Contents (Elt Ideal)) :
    val_main_v9 (F := Ideal) x0 x3 x4 = Cert.Spec.lin x0 (val_main_v5 (F := Ideal) x3) x4 := by
  funext i
  rw [val_main_v9_apply, val_main_v6_apply, val_main_v8_apply, val_main_v7_apply]
  rfl

/-- The reference's result is `G` of its arguments: the aggregated messages through the output layer, plus the
    electrical projection. -/
theorem result_eq (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 x8 x9 x10 : (⟨S500000, .i32⟩ : BufTy).Contents (Elt Ideal)) :
    val_main_v36 (F := Ideal) x0 x1 x2 x3 x4 x5 x6 x7 x8 x9 x10 = G x0 x1 x2 x3 x4 x5 x6 x7 x8 x9 x10 := by
  have hagg : val_main_v30 (F := Ideal) x0 x1 x2 x3 x4 x7 x8 x9 x10
      = aggregate (Cert.Spec.lin x0 (val_main_v0 (F := Ideal) x1) x2) (Cert.Spec.lin x0 (val_main_v5 (F := Ideal) x3) x4) x7 x8 x9 x10 := by
    rw [← proj_chem, ← proj_elec]; rfl
  funext i
  rw [val_main_v36_apply, val_main_v35_apply, val_main_v32_apply, val_main_v34_apply, val_main_v33_apply, hagg, proj_elec]
  rfl

end Cert.ReferenceIdeal.RefSide

end
-- ==== Proof.SrcRange.lean ====
/- The edge sources are node indices: what the precondition says of them, and what follows for a take that
   fills out-of-range reads.
   The precondition's last four conjuncts say every entry s of both source-index vectors satisfies 0 ≤ s < 50000
   (read as a signed 32-bit integer). A take in fill mode first adds 50000 to negative entries (there are none),
   then tests 0 ≤ s ≤ 49999 per entry and keeps the gathered row where the test holds, a fill value elsewhere.
   Under the precondition the test holds everywhere, so the take is the plain gather. -/
import proofs.«424200_j46445776339627_1_alg».proof.Pre_finite_inputs
import proofs.«424200_j46445776339627_1_alg».proof.Proof.Gen.Pre_finite_inputs
import Idealize.ShloMosaic.Lib.ReduceAll
import Idealize.ShloMosaic.Lib.ValueIdx
import Idealize.ShloMosaic.PureOps.Ideal

noncomputable section

namespace Cert.SrcRange

open Idealize.ShloMosaic

abbrev E : Shape := ⟨1, ![500000]⟩
abbrev E1 : Shape := ⟨2, ![500000, 1]⟩
abbrev EW : Shape := ⟨2, ![500000, 128]⟩
abbrev S0 : Shape := ⟨0, ![]⟩
abbrev S1 : Shape := ⟨1, ![1]⟩
abbrev S11 : Shape := ⟨2, ![1, 1]⟩

/-- Every entry is a node index: 0 ≤ s < 50000 as a signed word. -/
def InRange (s : IVec E 32) : Prop := ∀ i, (0 : Int) ≤ (s i).toInt ∧ (s i).toInt < 50000

instance : Subsingleton S0.Idx := ⟨fun a b => funext fun d => d.elim0⟩

/-- A conjunction of bits folded from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_ones f l _ ?_ fun n hn => hl n (List.mem_cons_of_mem _ hn)
    rw [IntOp.andi_eq_one]; exact ⟨h, hl a List.mem_cons_self⟩

/-- The precondition, read: both source-index vectors are in range. -/
theorem inRange_of_pre (a0 : FVec Ideal Cert.Pre_finite_inputs.S50000x128 .f32) (a1 : FVec Ideal Cert.Pre_finite_inputs.S128x128 .f32)
    (a2 : FVec Ideal Cert.Pre_finite_inputs.S128 .f32) (a3 : FVec Ideal Cert.Pre_finite_inputs.S128x128 .f32) (a4 : FVec Ideal Cert.Pre_finite_inputs.S128 .f32)
    (a5 : FVec Ideal Cert.Pre_finite_inputs.S128x128 .f32) (a6 : FVec Ideal Cert.Pre_finite_inputs.S128 .f32) (a7 a8 a9 a10 : IVec E 32)
    (h : Cert.Pre_finite_inputs.fn (F := Ideal) a0 a1 a2 a3 a4 a5 a6 a7 a8 a9 a10 = (fun _ => 1#1)) :
    InRange a7 ∧ InRange a9 := by
  have h0 := congrFun h ValueIdx.ix0
  dsimp only [Cert.Pre_finite_inputs.fn, Cert.Pre_finite_inputs.fn_part1, Cert.Pre_finite_inputs.fn_part2] at h0
  obtain ⟨h1, hd⟩ := IntOp.andi_eq_one.1 h0
  obtain ⟨h2, hc⟩ := IntOp.andi_eq_one.1 h1
  obtain ⟨h3, hb⟩ := IntOp.andi_eq_one.1 h2
  obtain ⟨-, ha⟩ := IntOp.andi_eq_one.1 h3
  have z : (0#32 : BitVec 32).toInt = 0 := by decide
  have n : (50000#32 : BitVec 32).toInt = 50000 := by decide
  have h7a : ∀ i, (0#32 : BitVec 32).toInt ≤ (a7 i).toInt := fun i =>
    IntOp.cmpi_sge.1 (Host.reduce_andi_all _ _ _ _ ValueIdx.ix0 ha i)
  have h7b : ∀ i, (a7 i).toInt < (50000#32 : BitVec 32).toInt := fun i =>
    IntOp.cmpi_slt.1 (Host.reduce_andi_all _ _ _ _ ValueIdx.ix0 hb i)
  have h9a : ∀ i, (0#32 : BitVec 32).toInt ≤ (a9 i).toInt := fun i =>
    IntOp.cmpi_sge.1 (Host.reduce_andi_all _ _ _ _ ValueIdx.ix0 hc i)
  have h9b : ∀ i, (a9 i).toInt < (50000#32 : BitVec 32).toInt := fun i =>
    IntOp.cmpi_slt.1 (Host.reduce_andi_all _ _ _ _ ValueIdx.ix0 hd i)
  exact ⟨fun i => ⟨z ▸ h7a i, n ▸ h7b i⟩, fun i => ⟨z ▸ h9a i, n ▸ h9b i⟩⟩

/-- One entry: a word in range is not negative, so it is not wrapped, and it passes both bounds tests. -/
theorem word_passes (x : BitVec 32) (h0 : (0 : Int) ≤ x.toInt) (h1 : x.toInt < 50000) :
    IntOp.andi
      (IntOp.cmpi .sge (Scalar.select (IntOp.cmpi .slt x 0#32) (IntOp.addi x 50000#32) x) 0#32)
      (IntOp.cmpi .sle (Scalar.select (IntOp.cmpi .slt x 0#32) (IntOp.addi x 50000#32) x) 49999#32) = 1#1 := by
  have z : (0#32 : BitVec 32).toInt = 0 := by decide
  have n : (49999#32 : BitVec 32).toInt = 49999 := by decide
  have hlt : IntOp.cmpi .slt x 0#32 = 0#1 := ValueIdx.eq_zero_of_ne_one fun h => by
    have := IntOp.cmpi_slt.1 h; rw [z] at this; omega
  rw [hlt, ValueIdx.select_zero, IntOp.andi_eq_one]
  exact ⟨IntOp.cmpi_sge.2 (by rw [z]; exact h0), IntOp.cmpi_sle.2 (by rw [n]; omega)⟩

/-- The take's bounds test, entry by entry: for a source vector in range, the wrapped index at every entry passes
    0 ≤ · ≤ 49999, so the row-wise conjunction, laid along the 128 columns, is 1 everywhere. -/
theorem guard_ones (hb0 : S0.BroadcastsInDim E (![] : Fin 0 → Fin E.rank)) (hb1 : E.BroadcastsInDim E1 (![0] : Fin 1 → Fin E1.rank))
    (hb2 : S0.BroadcastsInDim E1 (![] : Fin 0 → Fin E1.rank)) (hb3 : S1.BroadcastsInDim S11 (![1] : Fin 1 → Fin S11.rank))
    (hb4 : S11.BroadcastsInDim E1 (![0, 1] : Fin 2 → Fin E1.rank)) (hr : E1.ReducesTo [1] E) (hS : 0 < S0.numel)
    (hb5 : E.BroadcastsInDim EW (![0] : Fin 1 → Fin EW.rank)) (s : IVec E 32) (hs : InRange s) (j : EW.Idx) :
    broadcastInDim EW ![0] hb5
      (Host.reduce IntOp.andi
        (andi
          (cmpi .sge
            (broadcastInDim E1 ![0] hb1 (select (cmpi .slt s (broadcastInDim E ![] hb0 (constantI S0 32 0#32)))
              (addi s (broadcastInDim E ![] hb0 (constantI S0 32 50000#32))) s))
            (broadcastInDim E1 ![] hb2 (constantI S0 32 0#32)))
          (cmpi .sle
            (broadcastInDim E1 ![0] hb1 (select (cmpi .slt s (broadcastInDim E ![] hb0 (constantI S0 32 0#32)))
              (addi s (broadcastInDim E ![] hb0 (constantI S0 32 50000#32))) s))
            (broadcastInDim E1 ![0, 1] hb4 (broadcastInDim S11 ![1] hb3 (constantI S1 32 49999#32)))))
        (constantI S0 1 1#1) hr hS) j = 1#1 := by
  unfold broadcastInDim
  rw [Host.reduce_eq_foldl]
  refine foldl_andi_ones _ _ _ rfl fun i _ => ?_
  exact word_passes (s _) (hs _).1 (hs _).2

/-- So the fill-mode take of an in-range source vector keeps every gathered row. -/
theorem select_of_ones {α : Type} (g : IVec EW 1) (hg : ∀ j, g j = 1#1) (a b : EW.Idx → α) : select g a b = a := by
  funext j
  rw [ValueIdx.select_apply, hg j, ValueIdx.select_one]

end Cert.SrcRange

end
-- ==== Proof.HostSide.lean ====
/- What the kernel program's buffers hold at each boundary between its host operations and its two kernel regions.
   Before the first region the three weight matrices are transposed. The first region leaves the two projections.
   Then, per edge type, a take gathers the projection's rows at the edges' sources (the in-range test keeps every
   row, the sources being node indices) and a scatter-add sums them into the destinations' rows; the two sums are
   added. The second region reads that sum, the transposed output weights, the output bias and the electrical
   projection, and leaves the result. Composed, the result is the function `G` of the eleven arguments. -/
import proofs.«424200_j46445776339627_1_alg».proof.Proof.KernelRun
import proofs.«424200_j46445776339627_1_alg».proof.Proof.Region0Chem
import proofs.«424200_j46445776339627_1_alg».proof.Proof.Region0Elec
import proofs.«424200_j46445776339627_1_alg».proof.Proof.Region1
import proofs.«424200_j46445776339627_1_alg».proof.Proof.RefSide
import proofs.«424200_j46445776339627_1_alg».proof.Proof.SrcRange
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg)

/-! ## Before the first region: the weights transposed, everything else as launched -/

/-- The chemical weights, transposed. -/
theorem W1_v0 (c : Dev nD) : W1 (F := Ideal) m ρ c (Proc.devRef .tc main_v0) = (transpose S128x128 [1, 0] (m ((c : Thread nD τ).loc main_arg1)) transposes_S128x128_S128x128_1_0) := by
  show StableHlo.after hostOps0 (W0 m ρ c) (Proc.devRef .tc main_v0) = _
  simp only [hostOps0]
  after_results
  all_goals rfl

/-- The electrical weights, transposed. -/
theorem W1_v1 (c : Dev nD) : W1 (F := Ideal) m ρ c (Proc.devRef .tc main_v1) = (transpose S128x128 [1, 0] (m ((c : Thread nD τ).loc main_arg3)) transposes_S128x128_S128x128_1_0) := by
  show StableHlo.after hostOps0 (W0 m ρ c) (Proc.devRef .tc main_v1) = _
  simp only [hostOps0]
  after_results
  all_goals rfl

/-- The output weights, transposed. -/
theorem W1_v2 (c : Dev nD) : W1 (F := Ideal) m ρ c (Proc.devRef .tc main_v2) = (transpose S128x128 [1, 0] (m ((c : Thread nD τ).loc main_arg5)) transposes_S128x128_S128x128_1_0) := by
  show StableHlo.after hostOps0 (W0 m ρ c) (Proc.devRef .tc main_v2) = _
  simp only [hostOps0]
  after_results
  all_goals rfl

/-- Argument 0 is as launched. -/
theorem W1_arg0 (c : Dev nD) : W1 (F := Ideal) m ρ c (Proc.devRef .tc main_arg0) = (m ((c : Thread nD τ).loc main_arg0)) := by
  show StableHlo.after hostOps0 (W0 m ρ c) (Proc.devRef .tc main_arg0) = _
  simp only [hostOps0]
  after_results
  all_goals rfl

/-- Argument 2 is as launched. -/
theorem W1_arg2 (c : Dev nD) : W1 (F := Ideal) m ρ c (Proc.devRef .tc main_arg2) = (m ((c : Thread nD τ).loc main_arg2)) := by
  show StableHlo.after hostOps0 (W0 m ρ c) (Proc.devRef .tc main_arg2) = _
  simp only [hostOps0]
  after_results
  all_goals rfl

/-- Argument 4 is as launched. -/
theorem W1_arg4 (c : Dev nD) : W1 (F := Ideal) m ρ c (Proc.devRef .tc main_arg4) = (m ((c : Thread nD τ).loc main_arg4)) := by
  show StableHlo.after hostOps0 (W0 m ρ c) (Proc.devRef .tc main_arg4) = _
  simp only [hostOps0]
  after_results
  all_goals rfl

/-- Argument 6 is as launched. -/
theorem W1_arg6 (c : Dev nD) : W1 (F := Ideal) m ρ c (Proc.devRef .tc main_arg6) = (m ((c : Thread nD τ).loc main_arg6)) := by
  show StableHlo.after hostOps0 (W0 m ρ c) (Proc.devRef .tc main_arg6) = _
  simp only [hostOps0]
  after_results
  all_goals rfl

/-- Argument 7 is as launched. -/
theorem W1_arg7 (c : Dev nD) : W1 (F := Ideal) m ρ c (Proc.devRef .tc main_arg7) = (m ((c : Thread nD τ).loc main_arg7)) := by
  show StableHlo.after hostOps0 (W0 m ρ c) (Proc.devRef .tc main_arg7) = _
  simp only [hostOps0]
  after_results
  all_goals rfl

/-- Argument 8 is as launched. -/
theorem W1_arg8 (c : Dev nD) : W1 (F := Ideal) m ρ c (Proc.devRef .tc main_arg8) = (m ((c : Thread nD τ).loc main_arg8)) := by
  show StableHlo.after hostOps0 (W0 m ρ c) (Proc.devRef .tc main_arg8) = _
  simp only [hostOps0]
  after_results
  all_goals rfl

/-- Argument 9 is as launched. -/
theorem W1_arg9 (c : Dev nD) : W1 (F := Ideal) m ρ c (Proc.devRef .tc main_arg9) = (m ((c : Thread nD τ).loc main_arg9)) := by
  show StableHlo.after hostOps0 (W0 m ρ c) (Proc.devRef .tc main_arg9) = _
  simp only [hostOps0]
  after_results
  all_goals rfl

/-- Argument 10 is as launched. -/
theorem W1_arg10 (c : Dev nD) : W1 (F := Ideal) m ρ c (Proc.devRef .tc main_arg10) = (m ((c : Thread nD τ).loc main_arg10)) := by
  show StableHlo.after hostOps0 (W0 m ρ c) (Proc.devRef .tc main_arg10) = _
  simp only [hostOps0]
  after_results
  all_goals rfl

/-! ## After the first region: the two projections; the buffers it does not write are as before -/

/-- The chemical projection: the linear layer of the features with the transposed chemical weights and bias. -/
theorem W2_proj_chem (c : Dev nD) : W2 (F := Ideal) m ρ c (Proc.devRef .tc main_v3_0)
    = Cert.Spec.lin (m ((c : Thread nD τ).loc main_arg0)) (transpose S128x128 [1, 0] (m ((c : Thread nD τ).loc main_arg1)) transposes_S128x128_S128x128_1_0) (m ((c : Thread nD τ).loc main_arg2)) := by
  refine (W2_arr m ρ c 5).trans ((Cert.KernelIdeal.Region0.final5 (V1 m ρ) c).trans ?_)
  show Cert.Spec.lin (W1 m ρ c (Proc.devRef .tc main_arg0)) (W1 m ρ c (Proc.devRef .tc main_v0)) (W1 m ρ c (Proc.devRef .tc main_arg2)) = _
  rw [W1_arg0, W1_v0, W1_arg2]

/-- The electrical projection likewise. -/
theorem W2_proj_elec (c : Dev nD) : W2 (F := Ideal) m ρ c (Proc.devRef .tc main_v3_1)
    = Cert.Spec.lin (m ((c : Thread nD τ).loc main_arg0)) (transpose S128x128 [1, 0] (m ((c : Thread nD τ).loc main_arg3)) transposes_S128x128_S128x128_1_0) (m ((c : Thread nD τ).loc main_arg4)) := by
  refine (W2_arr m ρ c 6).trans ((Cert.KernelIdeal.Region0.final6 (V1 m ρ) c).trans ?_)
  show Cert.Spec.lin (W1 m ρ c (Proc.devRef .tc main_arg0)) (W1 m ρ c (Proc.devRef .tc main_v1)) (W1 m ρ c (Proc.devRef .tc main_arg4)) = _
  rw [W1_arg0, W1_v1, W1_arg4]

/-- Argument 6 is untouched by the first region. -/
theorem W2_arg6 (c : Dev nD) : W2 (F := Ideal) m ρ c (Proc.devRef .tc main_arg6) = (m ((c : Thread nD τ).loc main_arg6)) :=
  (W2_of_ne m ρ c main_arg6 (by decide)).trans (W1_arg6 m ρ c)

/-- Argument 7 is untouched by the first region. -/
theorem W2_arg7 (c : Dev nD) : W2 (F := Ideal) m ρ c (Proc.devRef .tc main_arg7) = (m ((c : Thread nD τ).loc main_arg7)) :=
  (W2_of_ne m ρ c main_arg7 (by decide)).trans (W1_arg7 m ρ c)

/-- Argument 8 is untouched by the first region. -/
theorem W2_arg8 (c : Dev nD) : W2 (F := Ideal) m ρ c (Proc.devRef .tc main_arg8) = (m ((c : Thread nD τ).loc main_arg8)) :=
  (W2_of_ne m ρ c main_arg8 (by decide)).trans (W1_arg8 m ρ c)

/-- Argument 9 is untouched by the first region. -/
theorem W2_arg9 (c : Dev nD) : W2 (F := Ideal) m ρ c (Proc.devRef .tc main_arg9) = (m ((c : Thread nD τ).loc main_arg9)) :=
  (W2_of_ne m ρ c main_arg9 (by decide)).trans (W1_arg9 m ρ c)

/-- Argument 10 is untouched by the first region. -/
theorem W2_arg10 (c : Dev nD) : W2 (F := Ideal) m ρ c (Proc.devRef .tc main_arg10) = (m ((c : Thread nD τ).loc main_arg10)) :=
  (W2_of_ne m ρ c main_arg10 (by decide)).trans (W1_arg10 m ρ c)

/-- The transposed output weights are untouched by the first region. -/
theorem W2_v2 (c : Dev nD) : W2 (F := Ideal) m ρ c (Proc.devRef .tc main_v2) = (transpose S128x128 [1, 0] (m ((c : Thread nD τ).loc main_arg5)) transposes_S128x128_S128x128_1_0) :=
  (W2_of_ne m ρ c main_v2 (by decide)).trans (W1_v2 m ρ c)

/-! ## Before the second region -/

/-- The aggregated messages. With both source vectors in range each take keeps every gathered row, and what is
    left is the reference's own aggregation of the two projections. -/
theorem W5_agg (c : Dev nD)
    (h7 : Cert.SrcRange.InRange (W2 (F := Ideal) m ρ c (Proc.devRef .tc main_arg7)))
    (h9 : Cert.SrcRange.InRange (W2 (F := Ideal) m ρ c (Proc.devRef .tc main_arg9))) :
    W5 (F := Ideal) m ρ c (Proc.devRef .tc main_v12)
      = Cert.ReferenceIdeal.RefSide.aggregate (W2 (F := Ideal) m ρ c (Proc.devRef .tc main_v3_0)) (W2 (F := Ideal) m ρ c (Proc.devRef .tc main_v3_1))
          (W2 (F := Ideal) m ρ c (Proc.devRef .tc main_arg7)) (W2 (F := Ideal) m ρ c (Proc.devRef .tc main_arg8))
          (W2 (F := Ideal) m ρ c (Proc.devRef .tc main_arg9)) (W2 (F := Ideal) m ρ c (Proc.devRef .tc main_arg10)) := by
  show StableHlo.after hostOps1_2 (StableHlo.after hostOps1_1 (StableHlo.after hostOps1 (W2 m ρ c))) (Proc.devRef .tc main_v12) = _
  simp only [hostOps1_2, hostOps1_1, hostOps1]
  after_results_simp
  simp only [TRef.ofBuf, TRef.toBuf, cast_eq]
  rw [Cert.SrcRange.select_of_ones _ (fun j => Cert.SrcRange.guard_ones _ _ _ _ _ _ _ _ _ h7 j),
    Cert.SrcRange.select_of_ones _ (fun j => Cert.SrcRange.guard_ones _ _ _ _ _ _ _ _ _ h9 j)]
  rfl

/-- No host operation between the regions writes the transposed output weights. -/
theorem W5_v2 (c : Dev nD) : W5 (F := Ideal) m ρ c (Proc.devRef .tc main_v2) = W2 (F := Ideal) m ρ c (Proc.devRef .tc main_v2) := by
  show StableHlo.after hostOps1_2 (StableHlo.after hostOps1_1 (StableHlo.after hostOps1 (W2 m ρ c))) (Proc.devRef .tc main_v2) = _
  simp only [hostOps1_2, hostOps1_1, hostOps1]
  after_results_simp

/-- Nor the output bias. -/
theorem W5_arg6 (c : Dev nD) : W5 (F := Ideal) m ρ c (Proc.devRef .tc main_arg6) = W2 (F := Ideal) m ρ c (Proc.devRef .tc main_arg6) := by
  show StableHlo.after hostOps1_2 (StableHlo.after hostOps1_1 (StableHlo.after hostOps1 (W2 m ρ c))) (Proc.devRef .tc main_arg6) = _
  simp only [hostOps1_2, hostOps1_1, hostOps1]
  after_results_simp

/-- Nor the electrical projection. -/
theorem W5_proj_elec (c : Dev nD) : W5 (F := Ideal) m ρ c (Proc.devRef .tc main_v3_1) = W2 (F := Ideal) m ρ c (Proc.devRef .tc main_v3_1) := by
  show StableHlo.after hostOps1_2 (StableHlo.after hostOps1_1 (StableHlo.after hostOps1 (W2 m ρ c))) (Proc.devRef .tc main_v3_1) = _
  simp only [hostOps1_2, hostOps1_1, hostOps1]
  after_results_simp

/-! ## After the second region: the result -/

/-- The result buffer at the end is `G` of the eleven arguments as launched, when both source vectors are in range. -/
theorem result_eq (c : Dev nD) (h7 : Cert.SrcRange.InRange (m ((c : Thread nD τ).loc main_arg7))) (h9 : Cert.SrcRange.InRange (m ((c : Thread nD τ).loc main_arg9))) :
    W6 (F := Ideal) m ρ c (Proc.devRef .tc main_v13)
      = Cert.ReferenceIdeal.RefSide.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 4).trans ((Cert.KernelIdeal.Region1.result_array (V5 m ρ) c).trans ?_)
  show Cert.Spec.outLayer (W5 m ρ c (Proc.devRef .tc main_v12)) (W5 m ρ c (Proc.devRef .tc main_v2)) (W5 m ρ c (Proc.devRef .tc main_arg6))
      (W5 m ρ c (Proc.devRef .tc main_v3_1)) = _
  rw [W5_agg m ρ c (by rw [W2_arg7]; exact h7) (by rw [W2_arg9]; exact h9), W5_v2, W5_arg6, W5_proj_elec,
    W2_proj_chem, W2_proj_elec, W2_arg6, W2_arg7, W2_arg8, W2_arg9, W2_arg10, W2_v2]
  rfl

end Cert.KernelIdeal.HostSide

end
-- ==== Proof.lean ====
/- The layer  out = (Σ over both edge types of the gathered, scatter-summed projections) · W_outᵀ + b_out + Wh_elec,
   with Wh_t = feats · W_tᵀ + b_t, computed two ways: the kernel program tiles its three dense stages over
   5000-row blocks in two kernels and leaves the gather and scatter-add to the host; the reference is host
   operations throughout. Over the extended reals both are the same function `G` of the eleven arguments,
   provided every edge source is a node index (the one place they could differ: the kernel's take fills
   out-of-range reads, the reference's indexing clamps them).
   The frames are the generated ones; the reference's frame is its generated run with the result dropped;
   nothing was rewritten by the idealization, so `preserves` is trivial. -/
import proofs.«424200_j46445776339627_1_alg».proof.Defs
import proofs.«424200_j46445776339627_1_alg».proof.Proof.Gen.Kernel
import proofs.«424200_j46445776339627_1_alg».proof.Proof.Gen.Kernel.Frame
import proofs.«424200_j46445776339627_1_alg».proof.Proof.Gen.KernelIdeal
import proofs.«424200_j46445776339627_1_alg».proof.Proof.Gen.KernelIdeal.Frame
import proofs.«424200_j46445776339627_1_alg».proof.Proof.Gen.ReferenceIdeal
import proofs.«424200_j46445776339627_1_alg».proof.Proof.Gen.ReferenceIdeal.Run
import proofs.«424200_j46445776339627_1_alg».proof.Proof.Gen.ReferenceIdeal.Read
import proofs.«424200_j46445776339627_1_alg».proof.Proof.Gen.Pre_finite_inputs
import proofs.«424200_j46445776339627_1_alg».proof.Proof.KernelRun
import proofs.«424200_j46445776339627_1_alg».proof.Proof.HostSide
import proofs.«424200_j46445776339627_1_alg».proof.Proof.RefSide
import proofs.«424200_j46445776339627_1_alg».proof.Proof.SrcRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with `G` of the arguments: the kernel program by its run read boundary by boundary (the
    precondition putting both source vectors in range), the reference by its run read operation by operation. -/
theorem algebraic : Cert.algebraic_KernelIdeal_ReferenceIdeal := by
  intro m ρ m' ρ' hpre hagree
  refine ⟨fun c => Cert.ReferenceIdeal.RefSide.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ⟨(h c).1.trans ?_, (h c).2⟩)
      (Cert.KernelIdeal.Named.run_named (F := Ideal) m ρ)
    obtain ⟨h7, h9⟩ := Cert.SrcRange.inRange_of_pre _ _ _ _ _ _ _ _ _ _ _ (hpre c)
    exact Cert.KernelIdeal.HostSide.result_eq m ρ c h7 h9
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v36_eq, Cert.ReferenceIdeal.RefSide.result_eq]
    obtain ⟨a0, a1, a2, a3, a4, a5, a6, a7, a8, a9, a10⟩ := hagree c
    rw [a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
